-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64x256 : Shape := ⟨2, ![64, 256]⟩
abbrev S64 : Shape := ⟨1, ![64]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S64x2048x256 .f32) (main_arg1 : FVec F S64x256 .f32) (main_arg2 : FVec F S64 .f32) (main_arg3 : FVec F S64x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S64x2048x256 : Shape := ⟨3, ![64, 2048, 256]⟩
abbrev S64x256 : Shape := ⟨2, ![64, 256]⟩
abbrev S64 : Shape := ⟨1, ![64]⟩
abbrev S256x64 : Shape := ⟨2, ![256, 64]⟩
abbrev S1x64 : Shape := ⟨2, ![1, 64]⟩
abbrev S64x64x256 : Shape := ⟨3, ![64, 64, 256]⟩
abbrev S1x2048x256 : Shape := ⟨3, ![1, 2048, 256]⟩
abbrev S1x64x256 : Shape := ⟨3, ![1, 64, 256]⟩
abbrev S2048x256 : Shape := ⟨2, ![2048, 256]⟩
abbrev S2048 : Shape := ⟨1, ![2048]⟩
abbrev S2048x1 : Shape := ⟨2, ![2048, 1]⟩
abbrev S2048x64 : Shape := ⟨2, ![2048, 64]⟩
abbrev S64x1 : Shape := ⟨2, ![64, 1]⟩
abbrev S64x16384 : Shape := ⟨2, ![64, 16384]⟩
abbrev S_ : Shape := ⟨0, ![]⟩

abbrev nBuf : Space → Nat
  | .hbm => 18
  | .vmem => 7
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S256x64, .f32⟩
  | .hbm, ⟨5, _⟩ => ⟨S1x64, .f32⟩
  | .hbm, ⟨6, _⟩ => ⟨S64x64x256, .f32⟩
  | .hbm, ⟨7, _⟩ => ⟨S64x16384, .f32⟩
  | .hbm, ⟨8, _⟩ => ⟨S64x16384, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x16384, .f32⟩
  | .hbm, ⟨17, _⟩ => ⟨S64x16384, .f32⟩
  | .local _ .vmem, ⟨0, _⟩ => ⟨S1x2048x256, .f32⟩
  | .local _ .vmem, ⟨1, _⟩ => ⟨S1x2048x256, .f32⟩
  | .local _ .vmem, ⟨2, _⟩ => ⟨S256x64, .f32⟩
  | .local _ .vmem, ⟨3, _⟩ => ⟨S1x64, .f32⟩
  | .local _ .vmem, ⟨4, _⟩ => ⟨S64x256, .f32⟩
  | .local _ .vmem, ⟨5, _⟩ => ⟨S1x64x256, .f32⟩
  | .local _ .vmem, ⟨6, _⟩ => ⟨S1x64x256, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x256_S256x64_1_0 : S64x256.Transposes [1, 0] S256x64
  shapeCasts_S64_S1x64 : S64.ShapeCasts S1x64
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  reduces_S2048x64_S2048 : S2048x64.Reduces [1] S2048
  broadcasts_S2048x1_S2048x64 : S2048x1.Broadcasts S2048x64
  reduces_S2048x64_S64 : S2048x64.Reduces [0] S64
  transposes_S1x64_p1_0_S64x1 : S1x64.Transposes [1, 0] S64x1
  inb_S64x256_S64x256_0_0 : ∀ a, (![0, 0] : Fin 2 → Nat) a + S64x256.size a ≤ S64x256.size a
  h_S64x256 : 0 < S64x256.numel
  broadcasts_S64x1_S64x256 : S64x1.Broadcasts S64x256
  reduces_S64x256_S64 : S64x256.Reduces [1] S64
  shapeCasts_S64_S64x1 : S64.ShapeCasts S64x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  shapeCasts_S64x64x256_S64x16384 : S64x64x256.ShapeCasts S64x16384
  reducesTo_S64x16384_S64_d1 : S64x16384.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x16384_0_1 : S64x1.BroadcastsInDim S64x16384 (![0, 1] : Fin 2 → Fin S64x16384.rank)
  dot_S2048x256_S256x64_S2048x64_1_0_0_1_n_n_wf : DotDims.WF S2048x256 S256x64 S2048x64 [1] [0] [0] [1] [] []
  dot_S2048x64_S2048x256_S64x256_0_0_1_1_n_n_wf : DotDims.WF S2048x64 S2048x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S64x2048x256.size a
  hwx0_0 : ∀ i : grid0.Coords, EltTy.bits .f32 = 32 ∨ (Rect.block (s := S64x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S64x64x256.size a
  hwx0_4 : ∀ i : grid0.Coords, EltTy.bits .f32 = 32 ∨ (Rect.block (s := S64x64x256) S1x64x256.size (cc0_transform_4 i) (hinb0_4 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S2048x256_S64x256_0_0_1_1_n_n : DotDims S2048x64 S2048x256 S64x256 where
  lhsContracting := [0]
  rhsContracting := [0]
  lhsNonContracting := [1]
  rhsNonContracting := [1]
  lhsBatch := []
  rhsBatch := []
  wf := dot_S2048x64_S2048x256_S64x256_0_0_1_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S64x256 : Shape := ⟨2, ![64, 256]⟩
abbrev S64 : Shape := ⟨1, ![64]⟩
abbrev S_ : Shape := ⟨0, ![]⟩
abbrev S64x2048 : Shape := ⟨2, ![64, 2048]⟩
abbrev S64x2048x1 : Shape := ⟨3, ![64, 2048, 1]⟩
abbrev S64x2048x64 : Shape := ⟨3, ![64, 2048, 64]⟩
abbrev S1x1x64 : Shape := ⟨3, ![1, 1, 64]⟩
abbrev S64x64x256 : Shape := ⟨3, ![64, 64, 256]⟩
abbrev S64x64 : Shape := ⟨2, ![64, 64]⟩
abbrev S64x64x1 : Shape := ⟨3, ![64, 64, 1]⟩
abbrev S1x64x256 : Shape := ⟨3, ![1, 64, 256]⟩
abbrev S64x16384 : Shape := ⟨2, ![64, 16384]⟩
abbrev S64x1 : Shape := ⟨2, ![64, 1]⟩

abbrev nBuf : Space → Nat
  | .hbm => 62
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x256, .f32⟩
  | .hbm, ⟨2, _⟩ => ⟨S64, .f32⟩
  | .hbm, ⟨3, _⟩ => ⟨S64x256, .f32⟩
  | .hbm, ⟨4, _⟩ => ⟨S64x2048x256, .f32⟩
  | .hbm, ⟨5, _⟩ => ⟨S_, .f32⟩
  | .hbm, ⟨6, _⟩ => ⟨S64x2048, .f32⟩
  | .hbm, ⟨7, _⟩ => ⟨S64x2048x1, .f32⟩
  | .hbm, ⟨8, _⟩ => ⟨S64x2048x1, .f32⟩
  | .hbm, ⟨9, _⟩ => ⟨S_, .f32⟩
  | .hbm, ⟨10, _⟩ => ⟨S64x2048x1, .f32⟩
  | .hbm, ⟨11, _⟩ => ⟨S64x2048x1, .f32⟩
  | .hbm, ⟨12, _⟩ => ⟨S64x2048x256, .f32⟩
  | .hbm, ⟨13, _⟩ => ⟨S64x2048x256, .f32⟩
  | .hbm, ⟨14, _⟩ => ⟨S64x2048x64, .f32⟩
  | .hbm, ⟨15, _⟩ => ⟨S1x1x64, .f32⟩
  | .hbm, ⟨16, _⟩ => ⟨S64x2048x64, .f32⟩
  | .hbm, ⟨17, _⟩ => ⟨S64x2048x64, .f32⟩
  | .hbm, ⟨18, _⟩ => ⟨S_, .f32⟩
  | .hbm, ⟨19, _⟩ => ⟨S64x2048, .f32⟩
  | .hbm, ⟨20, _⟩ => ⟨S_, .f32⟩
  | .hbm, ⟨21, _⟩ => ⟨S64x2048, .f32⟩
  | .hbm, ⟨22, _⟩ => ⟨S64x2048, .f32⟩
  | .hbm, ⟨23, _⟩ => ⟨S64x2048x1, .f32⟩
  | .hbm, ⟨24, _⟩ => ⟨S64x2048x64, .f32⟩
  | .hbm, ⟨25, _⟩ => ⟨S64x2048x64, .f32⟩
  | .hbm, ⟨26, _⟩ => ⟨S64x2048x64, .f32⟩
  | .hbm, ⟨27, _⟩ => ⟨S_, .f32⟩
  | .hbm, ⟨28, _⟩ => ⟨S64x2048, .f32⟩
  | .hbm, ⟨29, _⟩ => ⟨S64x2048x1, .f32⟩
  | .hbm, ⟨30, _⟩ => ⟨S64x2048x64, .f32⟩
  | .hbm, ⟨31, _⟩ => ⟨S64x2048x64, .f32⟩
  | .hbm, ⟨32, _⟩ => ⟨S64x64x256, .f32⟩
  | .hbm, ⟨33, _⟩ => ⟨S_, .f32⟩
  | .hbm, ⟨34, _⟩ => ⟨S64x64, .f32⟩
  | .hbm, ⟨35, _⟩ => ⟨S64x64x1, .f32⟩
  | .hbm, ⟨36, _⟩ => ⟨S1x64x256, .f32⟩
  | .hbm, ⟨37, _⟩ => ⟨S64x64x256, .f32⟩
  | .hbm, ⟨38, _⟩ => ⟨S64x64x256, .f32⟩
  | .hbm, ⟨39, _⟩ => ⟨S64x64x256, .f32⟩
  | .hbm, ⟨40, _⟩ => ⟨S64x64x256, .f32⟩
  | .hbm, ⟨41, _⟩ => ⟨S64x64x256, .f32⟩
  | .hbm, ⟨42, _⟩ => ⟨S_, .f32⟩
  | .hbm, ⟨43, _⟩ => ⟨S64x64, .f32⟩
  | .hbm, ⟨44, _⟩ => ⟨S64x64x1, .f32⟩
  | .hbm, ⟨45, _⟩ => ⟨S64x64x1, .f32⟩
  | .hbm, ⟨46, _⟩ => ⟨S_, .f32⟩
  | .hbm, ⟨47, _⟩ => ⟨S64x64x1, .f32⟩
  | .hbm, ⟨48, _⟩ => ⟨S64x64x1, .f32⟩
  | .hbm, ⟨49, _⟩ => ⟨S64x64x256, .f32⟩
  | .hbm, ⟨50, _⟩ => ⟨S64x64x256, .f32⟩
  | .hbm, ⟨51, _⟩ => ⟨S64x16384, .f32⟩
  | .hbm, ⟨52, _⟩ => ⟨S64x16384, .f32⟩
  | .hbm, ⟨53, _⟩ => ⟨S_, .f32⟩
  | .hbm, ⟨54, _⟩ => ⟨S64, .f32⟩
  | .hbm, ⟨55, _⟩ => ⟨S64x1, .f32⟩
  | .hbm, ⟨56, _⟩ => ⟨S64x1, .f32⟩
  | .hbm, ⟨57, _⟩ => ⟨S_, .f32⟩
  | .hbm, ⟨58, _⟩ => ⟨S64x1, .f32⟩
  | .hbm, ⟨59, _⟩ => ⟨S64x1, .f32⟩
  | .hbm, ⟨60, _⟩ => ⟨S64x16384, .f32⟩
  | .hbm, ⟨61, _⟩ => ⟨S64x16384, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_call2_v2 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  reducesTo_S64x2048x256_S64x2048_d2 : S64x2048x256.ReducesTo [2] S64x2048
  h_S_ : 0 < S_.numel
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  bcast_S64x2048x1_S64x2048x256_0_1_2 : S64x2048x1.BroadcastsInDim S64x2048x256 (![0, 1, 2] : Fin 3 → Fin S64x2048x256.rank)
  bcast_S64_S1x1x64_2 : S64.BroadcastsInDim S1x1x64 (![2] : Fin 1 → Fin S1x1x64.rank)
  bcast_S1x1x64_S64x2048x64_0_1_2 : S1x1x64.BroadcastsInDim S64x2048x64 (![0, 1, 2] : Fin 3 → Fin S64x2048x64.rank)
  reducesTo_S64x2048x64_S64x2048_d2 : S64x2048x64.ReducesTo [2] S64x2048
  bcast_S_S64x2048 : S_.BroadcastsInDim S64x2048 (![] : Fin 0 → Fin S64x2048.rank)
  bcast_S64x2048x1_S64x2048x64_0_1_2 : S64x2048x1.BroadcastsInDim S64x2048x64 (![0, 1, 2] : Fin 3 → Fin S64x2048x64.rank)
  reducesTo_S64x2048x64_S64x64_d1 : S64x2048x64.ReducesTo [1] S64x64
  bcast_S64x64_S64x64x1_0_1 : S64x64.BroadcastsInDim S64x64x1 (![0, 1] : Fin 2 → Fin S64x64x1.rank)
  bcast_S64x256_S1x64x256_1_2 : S64x256.BroadcastsInDim S1x64x256 (![1, 2] : Fin 2 → Fin S1x64x256.rank)
  bcast_S64x64x1_S64x64x256_0_1_2 : S64x64x1.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  reducesTo_S64x64x256_S64x64_d2 : S64x64x256.ReducesTo [2] S64x64
  bcast_S_S64x64x1 : S_.BroadcastsInDim S64x64x1 (![] : Fin 0 → Fin S64x64x1.rank)
  shapeCasts_S64x64x256_S64x16384 : S64x64x256.ShapeCasts S64x16384
  reducesTo_S64x16384_S64_d1 : S64x16384.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x16384_0_1 : S64x1.BroadcastsInDim S64x16384 (![0, 1] : Fin 2 → Fin S64x16384.rank)
  dot_S64x2048x256_S64x256_S64x2048x64_2_1_01_0_n_n_wf : DotDims.WF S64x2048x256 S64x256 S64x2048x64 [2] [1] [0, 1] [0] [] []
  dot_S64x2048x64_S64x2048x256_S64x64x256_1_1_2_2_0_0_wf : DotDims.WF S64x2048x64 S64x2048x256 S64x64x256 [1] [1] [2] [2] [0] [0]

variable [Facts₀]

def dot_S64x2048x256_S64x256_S64x2048x64_2_1_01_0_n_n : DotDims S64x2048x256 S64x256 S64x2048x64 where
  lhsContracting := [2]
  rhsContracting := [1]
  lhsNonContracting := [0, 1]
  rhsNonContracting := [0]
  lhsBatch := []
  rhsBatch := []
  wf := dot_S64x2048x256_S64x256_S64x2048x64_2_1_01_0_n_n_wf
def dot_S64x2048x64_S64x2048x256_S64x64x256_1_1_2_2_0_0 : DotDims S64x2048x64 S64x2048x256 S64x64x256 where
  lhsContracting := [1]
  rhsContracting := [1]
  lhsNonContracting := [2]
  rhsNonContracting := [2]
  lhsBatch := [0]
  rhsBatch := [0]
  wf := dot_S64x2048x64_S64x2048x256_S64x64x256_1_1_2_2_0_0_wf

class Facts : Prop extends Facts₀ where

variable [Facts]
-- ==== Proof.Spec.lean ====
/-
  The per-sample function both programs compute, over the extended reals.

  For one batch element, with `X t c` its `2048 × 256` feature rows, `W k c` the `64 × 256` assignment weights,
  `b k` the bias and `C k c` the `64 × 256` cluster centres:

    xn t c    = X t c / max (sqrt (∑ c', X t c'²)) ε                    each row scaled to unit length
    logit t k = (∑ c, xn t c · W k c) + b k
    a t k     = exp (logit t k − max (−∞) (max_k logit t k)) / ∑ k', exp (…)     the soft assignment of row t
    vlad k c  = (∑ t, a t k · xn t c) − (∑ t, a t k) · C k c            residuals to centre k, weighted and summed
    out k c   = vlad k c / max (sqrt (∑ c', vlad k c'²)) ε              each centre's row scaled to unit length

  Every sum is over one literal axis and is written in the order both programs take it, so no law of the extended
  reals beyond the definitions is needed to join them.
-/
import Idealize.ShloMosaic.PureOps.Ideal
import Idealize.ShloMosaic.PureOps.Ideal.Laws

noncomputable section

namespace Cert.Vlad

open Idealize.ShloMosaic

/-- The guard under each norm: the f32 nearest to `1e-12`, the same word in both programs. -/
def eps : EReal := Ideal.ofBits .f32 0x2B8CBCCC#32

/-- The start of each row maximum: f32's `−∞`. -/
def negInf : EReal := Ideal.ofBits .f32 0xFF800000#32

variable (X : Fin 2048 → Fin 256 → EReal) (W : Fin 64 → Fin 256 → EReal) (b : Fin 64 → EReal) (C : Fin 64 → Fin 256 → EReal)

/-- The guarded length of row `t`. -/
def rowLen (t : Fin 2048) : EReal := max (Ideal.sqrt (∑ c : Fin 256, X t c * X t c)) eps

/-- Row `t` scaled to unit length. -/
def xn (t : Fin 2048) (c : Fin 256) : EReal := Ideal.div (X t c) (rowLen X t)

/-- The score of row `t` for centre `k`. -/
def logit (t : Fin 2048) (k : Fin 64) : EReal := (∑ c : Fin 256, xn X t c * W k c) + b k

/-- The largest score of row `t`. -/
def rowMax (t : Fin 2048) : EReal := max negInf ((Finset.univ : Finset (Fin 64)).fold max negInf (logit X W b t))

/-- The shifted exponential of a score. -/
def ex (t : Fin 2048) (k : Fin 64) : EReal := Ideal.exp (logit X W b t k - rowMax X W b t)

/-- The soft assignment of row `t` to centre `k`. -/
def assign (t : Fin 2048) (k : Fin 64) : EReal := Ideal.div (ex X W b t k) (∑ k' : Fin 64, ex X W b t k')

/-- The summed weighted residuals to centre `k`. -/
def vlad (k : Fin 64) (c : Fin 256) : EReal :=
  (∑ t : Fin 2048, assign X W b t k * xn X t c) - (∑ t : Fin 2048, assign X W b t k) * C k c

/-- Centre `k`'s row of residuals scaled to unit length. -/
def out (k : Fin 64) (c : Fin 256) : EReal :=
  Ideal.div (vlad X W b C k c) (max (Ideal.sqrt (∑ c' : Fin 256, vlad X W b C k c' * vlad X W b C k c')) eps)

end Cert.Vlad

end
-- ==== Proof.LibMatrixOps.lean ====
/-
  Layout operations and one-axis reductions of a matrix, read at an index written by coordinates, at the extended
  reals: a vector made a column, a column spread over the columns of a matrix, a one-row matrix turned into a
  column, a row's sum, a column's sum, a row's maximum. Each is the library's general reading with the index
  relation it asks for checked coordinate by coordinate.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.Lib.MatrixOps

open Idealize.ShloMosaic Idealize.ShloMosaic.ValueIdx

variable {α : Type}

/-- A vector of `a` entries cast to a column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over `b` columns reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A one-row matrix transposed reads, at `(i, u)`, the row's entry `i`. -/
theorem transpose_1a_a1_apply {a : ℕ} (x : (⟨2, ![1, a]⟩ : Shape).Idx → α)
    (h : (⟨2, ![1, a]⟩ : Shape).Transposes [1, 0] ⟨2, ![a, 1]⟩) (i : Fin a) (u : Fin 1) :
    transpose ⟨2, ![a, 1]⟩ [1, 0] x h (ix2 i u) = x (ix2 u i) :=
  transpose_ix2_apply x h i u

/-- The sum along the rows of a matrix reads, at row `i`, the sum of that row's entries. (The accumulator's
    evidence is stated as an equation between two copies of the zero word, the form a printed reduction carries.) -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  (Ideal.multiReduction_add_single src 0x00000000#32 h hφ hacc (ix1 i)).trans
    (Finset.sum_congr rfl fun k _ => congrArg src (funext fun d => Fin.ext (by
      match d with
      | ⟨0, _⟩ => rfl
      | ⟨1, _⟩ => rfl)))

/-- The sum down the columns of a matrix reads, at column `j`, the sum of that column's entries. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  (Ideal.multiReduction_add_single src 0x00000000#32 h hφ hacc (ix1 j)).trans
    (Finset.sum_congr rfl fun k _ => congrArg src (funext fun d => Fin.ext (by
      match d with
      | ⟨0, _⟩ => rfl
      | ⟨1, _⟩ => rfl)))

/-- The maximum along the rows of a matrix reads, at row `i`, the fold of `max` from `−∞` over that row's entries. -/
theorem rowMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  (Ideal.multiReduction_maximumf_single src 0xFF800000#32 h hφ hacc (ix1 i)).trans
    (congrArg (fun f => Finset.fold max (Ideal.ofBits .f32 0xFF800000#32) f (Finset.univ : Finset (Fin b)))
      (funext fun k => congrArg src (funext fun d => Fin.ext (by
        match d with
        | ⟨0, _⟩ => rfl
        | ⟨1, _⟩ => rfl))))

end Cert.Lib.MatrixOps

end
-- ==== Proof.KernelStages.lean ====
/-
  The kernel body's arithmetic at one grid point, read index by index at the extended reals.

  The body's one store writes `k0_pay1 (k0_pay2 …) (k0_pay3 …)` of its four loaded blocks. Here that value is cut into
  the stages the mathematics has — rows scaled to unit length, scores, row maxima, shifted exponentials, soft
  assignments, weighted residual sums — each a small definition in the body's own operations, so that the payload IS
  their composition by unfolding; each stage is then read at an index (a matrix product as a sum over the contracted
  coordinate, a reduction as a sum or a fold over its axis, a cast or broadcast at the index it copies), and the
  composition is the per-sample function `Cert.Vlad.out` of the blocks.
-/
import proofs.«172084_j21844203668356_1_alg».proof.Proof.Gen.KernelIdeal.Skeleton
import proofs.«172084_j21844203668356_1_alg».proof.Proof.Spec
import proofs.«172084_j21844203668356_1_alg».proof.Proof.LibMatrixOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx Cert.Lib.MatrixOps

/-! ## The two matrix products read at an index -/

theorem lhs1_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs1_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs1_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs1_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- Rows times columns: entry `(t, k)` of the first product is the sum over `c` of `L (t, c) · R (c, k)`. -/
theorem matmul1_apply {φ₁ φ₂ : FTy} (L : FVec Ideal S2048x256 φ₁) (R : FVec Ideal S256x64 φ₂) (t : Fin 2048) (k : Fin 64) :
    matmul dot_S2048x256_S256x64_S2048x64_1_0_0_1_n_n none L R (constant S2048x64 .f32 0x00000000#32) (ix2 t k)
      = ∑ c : Fin 256, L (ix2 t c) * R (ix2 c k) := by
  simp only [matmul]
  rw [Ideal.matmul_constant_zero_apply, ← Equiv.sum_comp (ValueIdx.contrEquiv1 dot_S2048x256_S256x64_S2048x64_1_0_0_1_n_n 256 rfl rfl).symm]
  refine Finset.sum_congr rfl fun c _ => ?_
  have hk := ValueIdx.contrEquiv1_symm_val dot_S2048x256_S256x64_S2048x64_1_0_0_1_n_n 256 rfl rfl c
  have el : dot_S2048x256_S256x64_S2048x64_1_0_0_1_n_n.lhsIdx (ix2 t k) ((ValueIdx.contrEquiv1 dot_S2048x256_S256x64_S2048x64_1_0_0_1_n_n 256 rfl rfl).symm c) = ix2 t c := funext fun a => Fin.ext (by
    match a with
    | ⟨0, _⟩ => exact lhs1_0 _ _
    | ⟨1, _⟩ => exact (lhs1_1 _ _).trans hk)
  have er : dot_S2048x256_S256x64_S2048x64_1_0_0_1_n_n.rhsIdx (ix2 t k) ((ValueIdx.contrEquiv1 dot_S2048x256_S256x64_S2048x64_1_0_0_1_n_n 256 rfl rfl).symm c) = ix2 c k := funext fun a => Fin.ext (by
    match a with
    | ⟨0, _⟩ => exact (rhs1_0 _ _).trans hk
    | ⟨1, _⟩ => exact rhs1_1 _ _)
  rw [el, er]

theorem lhs2_0 (i : S64x256.Idx) (q : dot_S2048x64_S2048x256_S64x256_0_0_1_1_n_n.contr.Idx) :
    (dot_S2048x64_S2048x256_S64x256_0_0_1_1_n_n.lhsIdx i q 0).val = (q ⟨0, by decide⟩).val :=
  dot_S2048x64_S2048x256_S64x256_0_0_1_1_n_n.lhsIdx_val_of_single rfl i q
theorem lhs2_1 (i : S64x256.Idx) (q : dot_S2048x64_S2048x256_S64x256_0_0_1_1_n_n.contr.Idx) :
    (dot_S2048x64_S2048x256_S64x256_0_0_1_1_n_n.lhsIdx i q 1).val = (i 0).val := by
  unfold DotDims.lhsIdx
  rw [dif_neg (show ¬(1 : Fin S2048x64.rank) ∈ dot_S2048x64_S2048x256_S64x256_0_0_1_1_n_n.lhsBatch by decide), dif_pos (show (1 : Fin S2048x64.rank) ∈ dot_S2048x64_S2048x256_S64x256_0_0_1_1_n_n.lhsNonContracting by decide)]
  rfl
theorem rhs2_0 (i : S64x256.Idx) (q : dot_S2048x64_S2048x256_S64x256_0_0_1_1_n_n.contr.Idx) :
    (dot_S2048x64_S2048x256_S64x256_0_0_1_1_n_n.rhsIdx i q 0).val = (q ⟨0, by decide⟩).val :=
  dot_S2048x64_S2048x256_S64x256_0_0_1_1_n_n.rhsIdx_val_of_single rfl i q
theorem rhs2_1 (i : S64x256.Idx) (q : dot_S2048x64_S2048x256_S64x256_0_0_1_1_n_n.contr.Idx) :
    (dot_S2048x64_S2048x256_S64x256_0_0_1_1_n_n.rhsIdx i q 1).val = (i 1).val := by
  unfold DotDims.rhsIdx
  rw [dif_neg (show ¬(1 : Fin S2048x256.rank) ∈ dot_S2048x64_S2048x256_S64x256_0_0_1_1_n_n.rhsBatch by decide), dif_pos (show (1 : Fin S2048x256.rank) ∈ dot_S2048x64_S2048x256_S64x256_0_0_1_1_n_n.rhsNonContracting by decide)]
  rfl

/-- Both operands contracted along their rows: entry `(k, c)` of the second product is the sum over `t` of
    `L (t, k) · R (t, c)`. -/
theorem matmul2_apply {φ₁ φ₂ : FTy} (L : FVec Ideal S2048x64 φ₁) (R : FVec Ideal S2048x256 φ₂) (k : Fin 64) (c : Fin 256) :
    matmul dot_S2048x64_S2048x256_S64x256_0_0_1_1_n_n none L R (constant S64x256 .f32 0x00000000#32) (ix2 k c)
      = ∑ t : Fin 2048, L (ix2 t k) * R (ix2 t c) := by
  simp only [matmul]
  rw [Ideal.matmul_constant_zero_apply, ← Equiv.sum_comp (ValueIdx.contrEquiv1 dot_S2048x64_S2048x256_S64x256_0_0_1_1_n_n 2048 rfl rfl).symm]
  refine Finset.sum_congr rfl fun t _ => ?_
  have hk := ValueIdx.contrEquiv1_symm_val dot_S2048x64_S2048x256_S64x256_0_0_1_1_n_n 2048 rfl rfl t
  have el : dot_S2048x64_S2048x256_S64x256_0_0_1_1_n_n.lhsIdx (ix2 k c) ((ValueIdx.contrEquiv1 dot_S2048x64_S2048x256_S64x256_0_0_1_1_n_n 2048 rfl rfl).symm t) = ix2 t k := funext fun a => Fin.ext (by
    match a with
    | ⟨0, _⟩ => exact (lhs2_0 _ _).trans hk
    | ⟨1, _⟩ => exact lhs2_1 _ _)
  have er : dot_S2048x64_S2048x256_S64x256_0_0_1_1_n_n.rhsIdx (ix2 k c) ((ValueIdx.contrEquiv1 dot_S2048x64_S2048x256_S64x256_0_0_1_1_n_n 2048 rfl rfl).symm t) = ix2 t c := funext fun a => Fin.ext (by
    match a with
    | ⟨0, _⟩ => exact (rhs2_0 _ _).trans hk
    | ⟨1, _⟩ => exact rhs2_1 _ _)
  rw [el, er]

/-! ## The body's stages, in its own operations -/

/-- The rows of the block scaled to unit length. -/
def kXn (X : FVec Ideal S2048x256 .f32) : FVec Ideal S2048x256 .f32 :=
  divf X (broadcastTo S2048x256 (maximumf (sqrt (shapeCast S2048x1 (multiReduction .add [1] S2048 (mulf X X) 0x00000000#32 reduces_S2048x256_S2048 (.inl rfl) rfl) shapeCasts_S2048_S2048x1)) (broadcast S2048x1 (Scalar.ofBits .f32 0x2B8CBCCC#32))) broadcasts_S2048x1_S2048x256)

/-- The scores: the scaled rows times the transposed weights, plus the bias row. -/
def kLogit (Xn : FVec Ideal S2048x256 .f32) (WT : FVec Ideal S256x64 .f32) (B : FVec Ideal S1x64 .f32) : FVec Ideal S2048x64 .f32 :=
  addf (matmul dot_S2048x256_S256x64_S2048x64_1_0_0_1_n_n none (truncf .bf16 Xn bitsLt_bf16_f32) (truncf .bf16 WT bitsLt_bf16_f32) (constant S2048x64 .f32 0x00000000#32)) (broadcastTo S2048x64 B broadcasts_S1x64_S2048x64)

/-- Each row's largest score. -/
def kRowMax (L : FVec Ideal S2048x64 .f32) : FVec Ideal S2048 .f32 :=
  maximumf (broadcast S2048 (Scalar.ofBits .f32 0xFF800000#32)) (multiReduction .maximumf [1] S2048 L 0xFF800000#32 reduces_S2048x64_S2048 (.inl rfl) rfl)

/-- The exponentials of the scores less their row's largest. -/
def kEx (L : FVec Ideal S2048x64 .f32) : FVec Ideal S2048x64 .f32 :=
  exp (subf L (broadcastTo S2048x64 (shapeCast S2048x1 (kRowMax L) shapeCasts_S2048_S2048x1) broadcasts_S2048x1_S2048x64))

/-- Each row of exponentials divided by its sum. -/
def kAssign (E : FVec Ideal S2048x64 .f32) : FVec Ideal S2048x64 .f32 :=
  divf E (broadcastTo S2048x64 (shapeCast S2048x1 (multiReduction .add [1] S2048 E 0x00000000#32 reduces_S2048x64_S2048 (.inl rfl) rfl) shapeCasts_S2048_S2048x1) broadcasts_S2048x1_S2048x64)

/-- The assignments contracted with the scaled rows, less each centre times its column of assignments summed. -/
def kVlad (A : FVec Ideal S2048x64 .f32) (Xn : FVec Ideal S2048x256 .f32) (C : FVec Ideal S64x256 .f32) : FVec Ideal S64x256 .f32 :=
  subf (matmul dot_S2048x64_S2048x256_S64x256_0_0_1_1_n_n none (truncf .bf16 A bitsLt_bf16_f32) (truncf .bf16 Xn bitsLt_bf16_f32) (constant S64x256 .f32 0x00000000#32))
    (mulf (broadcastTo S64x256 (transpose S64x1 [1, 0] (shapeCast S1x64 (multiReduction .add [0] S64 A 0x00000000#32 reduces_S2048x64_S64 (.inl rfl) rfl) shapeCasts_S64_S1x64) transposes_S1x64_p1_0_S64x1) broadcasts_S64x1_S64x256) C)

/-- The body's residual payload is the composition of the stages, the first block with its unit axis dropped. -/
theorem pay2_eq (v0 : Vec Ideal S1x2048x256 .f32) (v11 : Vec Ideal S256x64 .f32) (v15 : Vec Ideal S1x64 .f32) (v35 : Vec Ideal S64x256 .f32) :
    k0_pay2 (F := Ideal) v0 v11 v15 v35
      = kVlad (kAssign (kEx (kLogit (kXn (shapeCast S2048x256 v0 shapeCasts_S1x2048x256_S2048x256)) v11 v15)))
          (kXn (shapeCast S2048x256 v0 shapeCasts_S1x2048x256_S2048x256)) v35 := by
  have e : k0_pay2 (F := Ideal) v0 v11 v15 v35
      = kVlad (kAssign (kEx (kLogit (kXn (shapeCast S2048x256 v0 shapeCasts_S1x2048x256_S2048x256)) (shapeCast S256x64 v11 shapeCasts_S256x64_S256x64) (shapeCast S1x64 v15 shapeCasts_S1x64_S1x64))))
          (kXn (shapeCast S2048x256 v0 shapeCasts_S1x2048x256_S2048x256)) v35 := rfl
  rw [e, shapeCast_self, shapeCast_self]

/-! ## Each stage at an index -/

section Stages

variable (X : FVec Ideal S2048x256 .f32) (WT : FVec Ideal S256x64 .f32) (B : FVec Ideal S1x64 .f32) (C : FVec Ideal S64x256 .f32)

/-- The blocks as functions of coordinates: the rows, the weights (stored transposed), the bias row, the centres. -/
abbrev fX : Fin 2048 → Fin 256 → EReal := fun t c => X (ix2 t c)
abbrev fW : Fin 64 → Fin 256 → EReal := fun k c => WT (ix2 c k)
abbrev fB : Fin 64 → EReal := fun k => B (ix2 (0 : Fin 1) k)
abbrev fC : Fin 64 → Fin 256 → EReal := fun k c => C (ix2 k c)

theorem kXn_apply (t : Fin 2048) (c : Fin 256) : kXn X (ix2 t c) = Cert.Vlad.xn (fX X) t c := by
  show Ideal.div (X (ix2 t c)) (broadcastTo S2048x256 _ broadcasts_S2048x1_S2048x256 (ix2 t c)) = _
  rw [broadcastTo_a1_ab_apply]
  show Ideal.div (X (ix2 t c)) (max (Ideal.sqrt (shapeCast S2048x1 _ shapeCasts_S2048_S2048x1 (ix2 t (0 : Fin 1)))) (Ideal.ofBits .f32 0x2B8CBCCC#32)) = _
  rw [shapeCast_a_a1_apply, rowSum_apply]
  rfl

theorem kLogit_apply (Xn : FVec Ideal S2048x256 .f32) (t : Fin 2048) (k : Fin 64) :
    kLogit Xn WT B (ix2 t k) = (∑ c : Fin 256, Xn (ix2 t c) * WT (ix2 c k)) + B (ix2 (0 : Fin 1) k) := by
  show matmul dot_S2048x256_S256x64_S2048x64_1_0_0_1_n_n none (truncf .bf16 Xn bitsLt_bf16_f32) (truncf .bf16 WT bitsLt_bf16_f32) (constant S2048x64 .f32 0x00000000#32) (ix2 t k)
      + broadcastTo S2048x64 B broadcasts_S1x64_S2048x64 (ix2 t k) = _
  rw [matmul1_apply, broadcastTo_1b_ab_apply]
  rfl

theorem kRowMax_apply (L : FVec Ideal S2048x64 .f32) (t : Fin 2048) :
    kRowMax L (ix1 t) = max Cert.Vlad.negInf ((Finset.univ : Finset (Fin 64)).fold max Cert.Vlad.negInf (fun k => L (ix2 t k))) := by
  show max (Ideal.ofBits .f32 0xFF800000#32) (multiReduction .maximumf [1] S2048 L 0xFF800000#32 reduces_S2048x64_S2048 (.inl rfl) rfl (ix1 t)) = _
  rw [rowMax_apply]
  rfl

theorem kEx_apply (L : FVec Ideal S2048x64 .f32) (t : Fin 2048) (k : Fin 64) :
    kEx L (ix2 t k) = Ideal.exp (L (ix2 t k) - kRowMax L (ix1 t)) := by
  show Ideal.exp (L (ix2 t k) - broadcastTo S2048x64 (shapeCast S2048x1 (kRowMax L) shapeCasts_S2048_S2048x1) broadcasts_S2048x1_S2048x64 (ix2 t k)) = _
  rw [broadcastTo_a1_ab_apply, shapeCast_a_a1_apply]

theorem kAssign_apply (E : FVec Ideal S2048x64 .f32) (t : Fin 2048) (k : Fin 64) :
    kAssign E (ix2 t k) = Ideal.div (E (ix2 t k)) (∑ k' : Fin 64, E (ix2 t k')) := by
  show Ideal.div (E (ix2 t k)) (broadcastTo S2048x64 (shapeCast S2048x1 _ shapeCasts_S2048_S2048x1) broadcasts_S2048x1_S2048x64 (ix2 t k)) = _
  rw [broadcastTo_a1_ab_apply, shapeCast_a_a1_apply, rowSum_apply]

theorem kVlad_apply (A : FVec Ideal S2048x64 .f32) (Xn : FVec Ideal S2048x256 .f32) (k : Fin 64) (c : Fin 256) :
    kVlad A Xn C (ix2 k c) = (∑ t : Fin 2048, A (ix2 t k) * Xn (ix2 t c)) - (∑ t : Fin 2048, A (ix2 t k)) * C (ix2 k c) := by
  show matmul dot_S2048x64_S2048x256_S64x256_0_0_1_1_n_n none (truncf .bf16 A bitsLt_bf16_f32) (truncf .bf16 Xn bitsLt_bf16_f32) (constant S64x256 .f32 0x00000000#32) (ix2 k c)
      - broadcastTo S64x256 (transpose S64x1 [1, 0] (shapeCast S1x64 _ shapeCasts_S64_S1x64) transposes_S1x64_p1_0_S64x1) broadcasts_S64x1_S64x256 (ix2 k c) * C (ix2 k c) = _
  rw [matmul2_apply, broadcastTo_a1_ab_apply, transpose_1a_a1_apply, shapeCast_a_1a_apply, colSum_apply]
  rfl

/-! ## The stages composed are the per-sample function -/

theorem logit_eq (t : Fin 2048) (k : Fin 64) :
    kLogit (kXn X) WT B (ix2 t k) = Cert.Vlad.logit (fX X) (fW WT) (fB B) t k := by
  rw [kLogit_apply]
  unfold Cert.Vlad.logit
  simp only [kXn_apply]

theorem rowMax_eq (t : Fin 2048) :
    kRowMax (kLogit (kXn X) WT B) (ix1 t) = Cert.Vlad.rowMax (fX X) (fW WT) (fB B) t := by
  rw [kRowMax_apply]
  unfold Cert.Vlad.rowMax
  simp only [logit_eq]

theorem ex_eq (t : Fin 2048) (k : Fin 64) :
    kEx (kLogit (kXn X) WT B) (ix2 t k) = Cert.Vlad.ex (fX X) (fW WT) (fB B) t k := by
  rw [kEx_apply, logit_eq, rowMax_eq]
  rfl

theorem assign_eq (t : Fin 2048) (k : Fin 64) :
    kAssign (kEx (kLogit (kXn X) WT B)) (ix2 t k) = Cert.Vlad.assign (fX X) (fW WT) (fB B) t k := by
  rw [kAssign_apply]
  unfold Cert.Vlad.assign
  simp only [ex_eq]

theorem vlad_eq (k : Fin 64) (c : Fin 256) :
    kVlad (kAssign (kEx (kLogit (kXn X) WT B))) (kXn X) C (ix2 k c) = Cert.Vlad.vlad (fX X) (fW WT) (fB B) (fC C) k c := by
  rw [kVlad_apply]
  unfold Cert.Vlad.vlad
  simp only [assign_eq, kXn_apply]

end Stages

/-! ## The stored block -/

/-- The squared residuals summed along each centre's row. -/
theorem pay3_apply (v0 : Vec Ideal S1x2048x256 .f32) (v11 : Vec Ideal S256x64 .f32) (v15 : Vec Ideal S1x64 .f32) (v35 : Vec Ideal S64x256 .f32) (k : Fin 64) :
    k0_pay3 (F := Ideal) v0 v11 v15 v35 (ix1 k)
      = ∑ c : Fin 256, k0_pay2 (F := Ideal) v0 v11 v15 v35 (ix2 k c) * k0_pay2 (F := Ideal) v0 v11 v15 v35 (ix2 k c) := by
  show multiReduction .add [1] S64 (mulf (k0_pay2 (F := Ideal) v0 v11 v15 v35) (k0_pay2 (F := Ideal) v0 v11 v15 v35)) 0x00000000#32 reduces_S64x256_S64 (.inl rfl) rfl (ix1 k) = _
  rw [rowSum_apply]
  rfl

/-- The stored value: each residual over the guarded length of its centre's row, with a unit axis in front. -/
theorem pay1_apply (V : FVec Ideal S64x256 .f32) (S : FVec Ideal S64 .f32) (u : Fin 1) (k : Fin 64) (c : Fin 256) :
    k0_pay1 (F := Ideal) V S (ix3 u k c) = Ideal.div (V (ix2 k c)) (max (Ideal.sqrt (S (ix1 k))) Cert.Vlad.eps) := by
  show shapeCast S1x64x256 (divf V (broadcastTo S64x256 (maximumf (sqrt (shapeCast S64x1 S shapeCasts_S64_S64x1)) (broadcast S64x1 (Scalar.ofBits .f32 0x2B8CBCCC#32))) broadcasts_S64x1_S64x256)) shapeCasts_S64x256_S1x64x256 (ix3 u k c) = _
  rw [shapeCast_ab_1ab_apply]
  show Ideal.div (V (ix2 k c)) (broadcastTo S64x256 _ broadcasts_S64x1_S64x256 (ix2 k c)) = _
  rw [broadcastTo_a1_ab_apply]
  show Ideal.div (V (ix2 k c)) (max (Ideal.sqrt (shapeCast S64x1 S shapeCasts_S64_S64x1 (ix2 k (0 : Fin 1)))) (Ideal.ofBits .f32 0x2B8CBCCC#32)) = _
  rw [shapeCast_a_a1_apply]
  rfl

/-- WHAT THE BODY STORES, at `(u, k, c)` of its output block: the per-sample function of its four input blocks — the
    first read with its unit axis dropped, the weights read transposed, the bias read off its one row. -/
theorem block_out (v0 : Vec Ideal S1x2048x256 .f32) (v11 : Vec Ideal S256x64 .f32) (v15 : Vec Ideal S1x64 .f32) (v35 : Vec Ideal S64x256 .f32)
    (u : Fin 1) (k : Fin 64) (c : Fin 256) :
    k0_pay1 (F := Ideal) (k0_pay2 v0 v11 v15 v35) (k0_pay3 v0 v11 v15 v35) (ix3 u k c)
      = Cert.Vlad.out (fun t c => v0 (ix3 (0 : Fin 1) t c)) (fW v11) (fB v15) (fC v35) k c := by
  have hX : fX (shapeCast S2048x256 v0 shapeCasts_S1x2048x256_S2048x256) = fun t c => v0 (ix3 (0 : Fin 1) t c) :=
    funext fun t => funext fun c => shapeCast_1ab_ab_apply v0 shapeCasts_S1x2048x256_S2048x256 t c
  rw [pay1_apply, pay3_apply]
  simp only [pay2_eq, vlad_eq, hX]
  rfl

end Cert.KernelIdeal.KValue

end
-- ==== Proof.KernelArray.lean ====
/-
  The kernel's output array after the run, as one function of the argument arrays.

  Grid point `t` stages batch element `t`'s rows (block `(t, 0, 0)` of the first argument), the whole transposed weights,
  the whole bias row and the whole centres, and writes block `(t, 0, 0)` of the output. So what point `t` writes back is
  block `t` of ONE function of the arguments, `arrOut`: at `(n, k, c)` the per-sample function of batch element `n`.
  The 64 blocks tile the output, so the array after the run is that function.
-/
import proofs.«172084_j21844203668356_1_alg».proof.Proof.Gen.KernelIdeal.Frame
import proofs.«172084_j21844203668356_1_alg».proof.Proof.KernelStages
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.ArrValue

open Cert.KernelIdeal Cert.KernelIdeal.Gen Cert.KernelIdeal.KValue Idealize.ShloMosaic Idealize.ShloMosaic.TcCoe
open Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The four argument arrays as functions of coordinates. -/
abbrev aX (c : Dev nD) (n : Fin 64) : Fin 2048 → Fin 256 → EReal := fun t' c' => m ((c : Thread nD τ).loc main_arg0) (ix3 n t' c')
abbrev aW (c : Dev nD) : Fin 64 → Fin 256 → EReal := fun k c' => m ((c : Thread nD τ).loc main_arg1) (ix2 k c')
abbrev aB (c : Dev nD) : Fin 64 → EReal := fun k => m ((c : Thread nD τ).loc main_arg2) (ix1 k)
abbrev aC (c : Dev nD) : Fin 64 → Fin 256 → EReal := fun k c' => m ((c : Thread nD τ).loc main_arg3) (ix2 k c')

/-- The output array: at `(n, k, c)`, the per-sample function of batch element `n`. -/
def arrOut (c : Dev nD) : S64x64x256.Idx → EReal := fun i =>
  Cert.Vlad.out (aX m c (i 0)) (aW m c) (aB m c) (aC m c) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the rows' and the output's blocks move with the point
    along the batch axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Every batch element's output block is some point's. -/
theorem idx_onto : ∀ q : Fin 64, ∃ t : Fin cfg0.N, win0_4.index t = ![q.val, 0, 0] :=
  (by decide +kernel : ∀ q : Fin 64, ∃ t : Fin grid0.N, win0_4.index t = ![q.val, 0, 0])

/-- Grid point `t` as a batch element. -/
abbrev pt (t : Fin cfg0.N) : Fin 64 := ⟨t.val, lt_of_lt_of_eq t.isLt N_0⟩

/-! ## What the region finds in the arrays the host wrote -/

/-- The transposed weights. -/
theorem V_v0 (c : Dev nD) :
    (V m c main_v0 : S256x64.Idx → EReal) = transpose S256x64 [1, 0] (m ((c : Thread nD τ).loc main_arg1)) transposes_S64x256_S256x64_1_0 := by
  show StableHlo.after hostOps0 (fun b => m (c, b)) (Proc.devRef .tc main_v0) = _
  after_results <;> rfl

/-- The bias as one row. -/
theorem V_v1 (c : Dev nD) :
    (V m c main_v1 : S1x64.Idx → EReal) = shapeCast S1x64 (m ((c : Thread nD τ).loc main_arg2)) shapeCasts_S64_S1x64 := by
  show StableHlo.after hostOps0 (fun b => m (c, b)) (Proc.devRef .tc main_v1) = _
  after_results <;> rfl

/-! ## The input blocks at a point -/

theorem blk0_apply (c : Dev nD) (t : Fin cfg0.N) (t' : Fin 2048) (c' : Fin 256) :
    iblk m c 0 t (ix3 (0 : Fin 1) t' c') = aX m c (pt t) t' c' := by
  obtain ⟨e0, e1, e2, -⟩ := idx_facts t
  show V m c main_arg0 (((cfg0.win 0).blk t).view.emb (ix3 (0 : Fin 1) t' c')) = m ((c : Thread nD τ).loc main_arg0) (ix3 (pt t) t' c')
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 2048 + 1 * t'.val = t'.val; omega
  | ⟨2, _⟩ => show win0_0.index t (2 : Fin 3) * 256 + 1 * c'.val = c'.val; omega

theorem blk1_apply (c : Dev nD) (t : Fin cfg0.N) (c' : Fin 256) (k : Fin 64) :
    iblk m c 1 t (ix2 c' k) = aW m c k c' := by
  obtain ⟨-, -, -, e0, e1, -⟩ := idx_facts t
  show V m c main_v0 (((cfg0.win 1).blk t).view.emb (ix2 c' k)) = m ((c : Thread nD τ).loc main_arg1) (ix2 k c')
  have he : ((cfg0.win 1).blk t).view.emb (ix2 c' k) = ix2 c' k := funext fun a => Fin.ext (by
    match a with
    | ⟨0, _⟩ => show win0_1.index t (0 : Fin 2) * 256 + 1 * c'.val = c'.val; omega
    | ⟨1, _⟩ => show win0_1.index t (1 : Fin 2) * 64 + 1 * k.val = k.val; omega)
  rw [he, V_v0]
  exact transpose_ix2_apply _ _ c' k

theorem blk2_apply (c : Dev nD) (t : Fin cfg0.N) (k : Fin 64) :
    iblk m c 2 t (ix2 (0 : Fin 1) k) = aB m c k := by
  obtain ⟨-, -, -, -, -, e0, e1, -⟩ := idx_facts t
  show V m c main_v1 (((cfg0.win 2).blk t).view.emb (ix2 (0 : Fin 1) k)) = m ((c : Thread nD τ).loc main_arg2) (ix1 k)
  have he : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 64 + 1 * k.val = k.val; omega)
  rw [he, V_v1]
  exact shapeCast_a_1a_apply _ _ (0 : Fin 1) k

theorem blk3_apply (c : Dev nD) (t : Fin cfg0.N) (k : Fin 64) (c' : Fin 256) :
    iblk m c 3 t (ix2 k c') = aC m c k c' := by
  obtain ⟨-, -, -, -, -, -, -, e0, e1, -⟩ := idx_facts t
  show V m c main_arg3 (((cfg0.win 3).blk t).view.emb (ix2 k c')) = m ((c : Thread nD τ).loc main_arg3) (ix2 k c')
  rw [V_main_arg3]
  refine congrArg (m ((c : Thread nD τ).loc main_arg3)) (funext fun a => Fin.ext ?_)
  match a with
  | ⟨0, _⟩ => show win0_3.index t (0 : Fin 2) * 64 + 1 * k.val = k.val; omega
  | ⟨1, _⟩ => show win0_3.index t (1 : Fin 2) * 256 + 1 * c'.val = c'.val; omega

/-! ## What a point writes back, the cover, the array after the run -/

/-- WHAT POINT `t` WRITES BACK is block `t` of `arrOut`. -/
theorem flushed_eq (c : Dev nD) (t : Fin cfg0.N) :
    (dats m 0 c).flushed 4 t = ((cfg0.win 4).blk t).view.read (Elt Ideal) (arrOut m c) := by
  show (cfg0.win 4).cut (grid0.coords t) ((dats m 0 c).after 4 t) = _
  rw [after0_4]
  unfold out0_4
  rw [View.canon_unit_zero hz3]
  simp only [View.ld_unit_zero (S := S1x2048x256) hz3, View.ld_unit_zero (S := S256x64) hz2, View.ld_unit_zero (S := S1x64) hz2,
    View.ld_unit_zero (S := S64x256) hz2]
  obtain ⟨-, -, -, -, -, -, -, -, -, e0, e1, e2⟩ := idx_facts t
  funext j
  obtain ⟨u, k, c', rfl⟩ : ∃ (u : Fin 1) (k : Fin 64) (c' : Fin 256), j = ix3 u k c' := ⟨j 0, j 1, j 2, eq_ix3 j⟩
  show k0_pay1 (F := Ideal) (k0_pay2 (iblk m c 0 t) (iblk m c 1 t) (iblk m c 2 t) (iblk m c 3 t)) (k0_pay3 (iblk m c 0 t) (iblk m c 1 t) (iblk m c 2 t) (iblk m c 3 t)) (ix3 u k c')
    = arrOut m c (((cfg0.win 4).blk t).view.emb (ix3 u k c'))
  have he : ((cfg0.win 4).blk t).view.emb (ix3 u k c') = ix3 (pt t) k c' := funext fun a => Fin.ext (by
    have hu : u.val = 0 := by omega
    match a with
    | ⟨0, _⟩ => show win0_4.index t (0 : Fin 3) * 1 + 1 * u.val = t.val; omega
    | ⟨1, _⟩ => show win0_4.index t (1 : Fin 3) * 64 + 1 * k.val = k.val; omega
    | ⟨2, _⟩ => show win0_4.index t (2 : Fin 3) * 256 + 1 * c'.val = c'.val; omega)
  rw [he]
  refine (block_out (iblk m c 0 t) (iblk m c 1 t) (iblk m c 2 t) (iblk m c 3 t) u k c').trans ?_
  show _ = Cert.Vlad.out (aX m c (pt t)) (aW m c) (aB m c) (aC m c) k c'
  have h0 : (fun t' c'' => iblk m c 0 t (ix3 (0 : Fin 1) t' c'')) = aX m c (pt t) := funext fun t' => funext fun c'' => blk0_apply m c t t' c''
  have h1 : fW (iblk m c 1 t) = aW m c := funext fun k' => funext fun c'' => blk1_apply m c t c'' k'
  have h2 : fB (iblk m c 2 t) = aB m c := funext fun k' => blk2_apply m c t k'
  have h3 : fC (iblk m c 3 t) = aC m c := funext fun k' => funext fun c'' => blk3_apply m c t k' c''
  rw [h0, h1, h2, h3]

/-- An index of the output is in point `t`'s block iff each coordinate is in the block's range on its axis. -/
theorem mem_blk (t : Fin cfg0.N) (i : S64x64x256.Idx) :
    i ∈ ((cfg0.win 4).blk t).view.set ↔ ∀ a : Fin 3, win0_4.index t a * S1x64x256.size a ≤ (i a).val ∧ (i a).val < win0_4.index t a * S1x64x256.size a + S1x64x256.size a := by
  show i ∈ ((View.whole main_v2).slice (win0_4.rect t)).set ↔ _
  rw [View.set_slice_whole, Rect.mem_set_unit]
  exact Iff.rfl

/-- Every index of the output is in the block of the point its batch coordinate names. -/
theorem cover (i : S64x64x256.Idx) : ∃ t : Fin cfg0.N, (cfg0.win 4).flush t = true ∧ i ∈ ((cfg0.win 4).blk t).view.set := by
  have hi0 : (i 0).val < 64 := (i 0).isLt
  have hi1 : (i 1).val < 64 := (i 1).isLt
  have hi2 : (i 2).val < 256 := (i 2).isLt
  obtain ⟨t, ht⟩ := idx_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-- THE OUTPUT ARRAY after the run is `arrOut` of the arguments. -/
theorem final (c : Dev nD) : (dats m 0 c).arrAt 4 cfg0.N = arrOut m c :=
  (dats m 0 c).arrAt_eq_of_cover 4 (arrOut m c) (fun t _ => flushed_eq m c t) cover

end Cert.KernelIdeal.ArrValue

end
-- ==== Proof.RefValue.lean ====
/-
  The reference's array before its last flattening and scaling, `val_main_v32`, read at an index `(n, k, c)`:
  it is the per-sample function `Cert.Vlad.out` of batch element `n`'s rows, the weights, the bias and the centres.
-/
import proofs.«172084_j21844203668356_1_alg».proof.Proof.Gen.ReferenceIdeal.Read
import proofs.«172084_j21844203668356_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

variable (x : (⟨S64x2048x256, .f32⟩ : BufTy).Contents (Elt Ideal)) (W : (⟨S64x256, .f32⟩ : BufTy).Contents (Elt Ideal))
  (b : (⟨S64, .f32⟩ : BufTy).Contents (Elt Ideal)) (cen : (⟨S64x256, .f32⟩ : BufTy).Contents (Elt Ideal))

/-- Batch element `n`'s rows, the weights, the bias and the centres as functions of coordinates. -/
abbrev Xn (n : Fin 64) : Fin 2048 → Fin 256 → EReal := fun t c => x (ix3 n t c)
abbrev Wf : Fin 64 → Fin 256 → EReal := fun k c => W (ix2 k c)
abbrev bf : Fin 64 → EReal := fun k => b (ix1 k)
abbrev Cf : Fin 64 → Fin 256 → EReal := fun k c => cen (ix2 k c)

/-! ### Indices by coordinates -/

/-- A rank-3 index with the given coordinates is `ix3` of them. -/
theorem eq_ix3_of {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

/-- A rank-2 index with the given coordinates is `ix2` of them. -/
theorem eq_ix2_of {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-1 index with the given coordinate is `ix1` of it. -/
theorem eq_ix1_of {n0 : Nat} (i : (⟨1, ![n0]⟩ : Shape).Idx) (a : Fin n0) (h0 : (i 0).val = a.val) : i = ix1 a :=
  funext fun d => Fin.ext (by match d with | ⟨0, _⟩ => exact h0)

/-! ### The rows scaled to unit length -/

/-- The sum of squares along a row. -/
theorem ref_sumsq (n : Fin 64) (t : Fin 2048) :
    val_main_call0_v1 (F := Ideal) x (ix2 n t) = ∑ c : Fin 256, Xn x n t c * Xn x n t c := by
  rw [val_main_call0_v1_apply, val_main_call0_cst_apply, Ideal.ofBits_def, Ideal.ofBits_zero_f32, zero_add]
  refine Finset.sum_congr rfl fun q _ => ?_
  rw [val_main_call0_v0_apply, Ideal.mulf_def,
    show idx_main_call0_v1 (ix2 n t) q = ix3 n t q from eq_ix3_of _ _ _ _ rfl rfl rfl]

/-- The guarded length of a row, on the array that keeps a unit last axis. -/
theorem ref_rowLen (n : Fin 64) (t : Fin 2048) :
    val_main_v2 (F := Ideal) x (ix3 n t (0 : Fin 1)) = Cert.Vlad.rowLen (Xn x n) t := by
  rw [val_main_v2_apply, val_main_v0_apply, val_main_call0_v2_apply, val_main_v1_apply, val_main_cst_apply,
    show idx_main_call0_v2 (ix3 n t (0 : Fin 1)) = ix2 n t from eq_ix2_of _ _ _ rfl rfl,
    ref_sumsq, Ideal.ofBits_def, Ideal.hostUnary_sqrt_def, Ideal.maximumf_def]
  rfl

theorem ref_xn (n : Fin 64) (t : Fin 2048) (c : Fin 256) :
    val_main_v4 (F := Ideal) x (ix3 n t c) = Cert.Vlad.xn (Xn x n) t c := by
  rw [val_main_v4_apply, val_main_v3_apply,
    show idx_main_v3 (ix3 n t c) = ix3 n t (0 : Fin 1) from eq_ix3_of _ _ _ _ rfl rfl rfl,
    ref_rowLen, Ideal.hostDivf_def]
  rfl

/-! ### The scores -/

theorem ref_logit (n : Fin 64) (t : Fin 2048) (k : Fin 64) :
    val_main_v8 (F := Ideal) x W b (ix3 n t k) = Cert.Vlad.logit (Xn x n) (Wf W) (bf b) t k := by
  rw [val_main_v8_apply, val_main_v5_apply, val_main_v7_apply, val_main_v6_apply, Ideal.addf_def,
    show idx_main_v6 (idx_main_v7 (ix3 n t k)) = ix1 k from eq_ix1_of _ _ rfl]
  unfold Cert.Vlad.logit
  refine congrArg (· + _) (Finset.sum_congr rfl fun q _ => ?_)
  rw [show lidx_main_v5 (ix3 n t k) q = ix3 n t q from eq_ix3_of _ _ _ _ rfl rfl rfl,
    show ridx_main_v5 (ix3 n t k) q = ix2 k q from eq_ix2_of _ _ _ rfl rfl, ref_xn]

/-! ### The row maximum -/

/-- The fold of `max` along a row of scores, from `−∞`. -/
theorem ref_rowFold (n : Fin 64) (t : Fin 2048) :
    val_main_v9 (F := Ideal) x W b (ix2 n t)
      = (Finset.univ : Finset (Fin 64)).fold max Cert.Vlad.negInf (Cert.Vlad.logit (Xn x n) (Wf W) (bf b) t) := by
  have h : S64x2048x64.Reduces [2] S64x2048 := by decide
  unfold val_main_v9
  rw [Host.reduce_eq_fold_single FloatOps.maximumf _ _ reducesTo_S64x2048x64_S64x2048_d2 h h_S_ (ix2 n t)]
  have hf : (val_main_v8 (F := Ideal) x W b ∘ h.lift (ix2 n t)) = Cert.Vlad.logit (Xn x n) (Wf W) (bf b) t :=
    funext fun (q : Fin 64) => by
      show val_main_v8 (F := Ideal) x W b (h.lift (ix2 n t) q) = _
      rw [show h.lift (ix2 n t) q = ix3 n t q from eq_ix3_of _ _ _ _ rfl rfl rfl, ref_logit]
  rw [hf, val_main_cst_0_apply, Ideal.ofBits_def]
  rfl

theorem ref_rowMax (n : Fin 64) (t : Fin 2048) :
    val_main_v11 (F := Ideal) x W b (ix2 n t) = Cert.Vlad.rowMax (Xn x n) (Wf W) (bf b) t := by
  rw [val_main_v11_apply, val_main_v10_apply, val_main_cst_1_apply, Ideal.ofBits_def, Ideal.maximumf_def, ref_rowFold]
  rfl

/-! ### The soft assignment -/

theorem ref_ex (n : Fin 64) (t : Fin 2048) (k : Fin 64) :
    val_main_v15 (F := Ideal) x W b (ix3 n t k) = Cert.Vlad.ex (Xn x n) (Wf W) (bf b) t k := by
  rw [val_main_v15_apply, val_main_v14_apply, val_main_v13_apply, val_main_v12_apply,
    show idx_main_v12 (idx_main_v13 (ix3 n t k)) = ix2 n t from eq_ix2_of _ _ _ rfl rfl,
    ref_logit, ref_rowMax, Ideal.subf_def, Ideal.hostUnary_exp_def]
  rfl

/-- The sum of a row's shifted exponentials. -/
theorem ref_exSum (n : Fin 64) (t : Fin 2048) :
    val_main_v16 (F := Ideal) x W b (ix2 n t) = ∑ k' : Fin 64, Cert.Vlad.ex (Xn x n) (Wf W) (bf b) t k' := by
  rw [val_main_v16_apply, val_main_cst_2_apply, Ideal.ofBits_def, Ideal.ofBits_zero_f32, zero_add]
  refine Finset.sum_congr rfl fun q _ => ?_
  rw [show idx_main_v16 (ix2 n t) q = ix3 n t q from eq_ix3_of _ _ _ _ rfl rfl rfl, ref_ex]

theorem ref_assign (n : Fin 64) (t : Fin 2048) (k : Fin 64) :
    val_main_v19 (F := Ideal) x W b (ix3 n t k) = Cert.Vlad.assign (Xn x n) (Wf W) (bf b) t k := by
  rw [val_main_v19_apply, val_main_v18_apply, val_main_v17_apply,
    show idx_main_v17 (idx_main_v18 (ix3 n t k)) = ix2 n t from eq_ix2_of _ _ _ rfl rfl,
    ref_ex, ref_exSum, Ideal.hostDivf_def]
  rfl

/-! ### The weighted residual sums -/

/-- The weights of one centre summed over the rows. -/
theorem ref_assignSum (n : Fin 64) (k : Fin 64) :
    val_main_v21 (F := Ideal) x W b (ix2 n k) = ∑ t : Fin 2048, Cert.Vlad.assign (Xn x n) (Wf W) (bf b) t k := by
  rw [val_main_v21_apply, val_main_cst_3_apply, Ideal.ofBits_def, Ideal.ofBits_zero_f32, zero_add]
  refine Finset.sum_congr rfl fun q _ => ?_
  rw [show idx_main_v21 (ix2 n k) q = ix3 n q k from eq_ix3_of _ _ _ _ rfl rfl rfl, ref_assign]

/-- The weighted sum of the scaled rows. -/
theorem ref_wsum (n : Fin 64) (k : Fin 64) (c : Fin 256) :
    val_main_v20 (F := Ideal) x W b (ix3 n k c)
      = ∑ t : Fin 2048, Cert.Vlad.assign (Xn x n) (Wf W) (bf b) t k * Cert.Vlad.xn (Xn x n) t c := by
  rw [val_main_v20_apply]
  refine Finset.sum_congr rfl fun q _ => ?_
  rw [show lidx_main_v20 (ix3 n k c) q = ix3 n q k from eq_ix3_of _ _ _ _ rfl rfl rfl,
    show ridx_main_v20 (ix3 n k c) q = ix3 n q c from eq_ix3_of _ _ _ _ rfl rfl rfl, ref_assign, ref_xn]

theorem ref_vlad (n : Fin 64) (k : Fin 64) (c : Fin 256) :
    val_main_v27 (F := Ideal) x W b cen (ix3 n k c) = Cert.Vlad.vlad (Xn x n) (Wf W) (bf b) (Cf cen) k c := by
  rw [val_main_v27_apply, val_main_v26_apply, val_main_v24_apply, val_main_v22_apply, val_main_v25_apply,
    val_main_v23_apply, ref_wsum,
    show idx_main_v22 (idx_main_v24 (ix3 n k c)) = ix2 n k from eq_ix2_of _ _ _ rfl rfl,
    show idx_main_v23 (idx_main_v25 (ix3 n k c)) = ix2 k c from eq_ix2_of _ _ _ rfl rfl,
    ref_assignSum, Ideal.mulf_def, Ideal.subf_def]
  rfl

/-! ### Each centre's row scaled to unit length -/

/-- The sum of squares along a centre's row of residuals. -/
theorem ref_vladSumsq (n : Fin 64) (k : Fin 64) :
    val_main_call1_v1 (F := Ideal) x W b cen (ix2 n k)
      = ∑ c' : Fin 256, Cert.Vlad.vlad (Xn x n) (Wf W) (bf b) (Cf cen) k c' * Cert.Vlad.vlad (Xn x n) (Wf W) (bf b) (Cf cen) k c' := by
  rw [val_main_call1_v1_apply, val_main_call1_cst_apply, Ideal.ofBits_def, Ideal.ofBits_zero_f32, zero_add]
  refine Finset.sum_congr rfl fun q _ => ?_
  rw [val_main_call1_v0_apply, Ideal.mulf_def,
    show idx_main_call1_v1 (ix2 n k) q = ix3 n k q from eq_ix3_of _ _ _ _ rfl rfl rfl, ref_vlad]

theorem ref_out (n : Fin 64) (k : Fin 64) (c : Fin 256) :
    val_main_v32 (F := Ideal) x W b cen (ix3 n k c) = Cert.Vlad.out (Xn x n) (Wf W) (bf b) (Cf cen) k c := by
  rw [val_main_v32_apply, val_main_v31_apply, val_main_v30_apply, val_main_v28_apply, val_main_call1_v2_apply,
    val_main_v29_apply, val_main_cst_4_apply,
    show idx_main_call1_v2 (idx_main_v31 (ix3 n k c)) = ix2 n k from eq_ix2_of _ _ _ rfl rfl,
    ref_vlad, ref_vladSumsq, Ideal.ofBits_def, Ideal.hostUnary_sqrt_def, Ideal.maximumf_def, Ideal.hostDivf_def]
  rfl

end Cert.ReferenceIdeal.RefValue

end
-- ==== Proof.lean ====
/-
  The proof of `Cert.Claim`: the kernel and its reference compute one function over the extended reals.

  Per batch element both programs scale each feature row to unit length, score it against 64 centres, take the
  softmax of the scores, sum the softly assigned residuals to each centre and scale each centre's row of residuals to
  unit length (`Cert.Vlad.out`, Proof/Spec.lean); then both flatten the `64 × 256` residuals of each batch element and
  scale that vector to unit length. The kernel computes the per-element part one batch element to a grid point
  (Proof/KernelStages.lean: the body's stored value is `Cert.Vlad.out` of its blocks; Proof/KernelArray.lean: the 64 blocks
  tile the output array), the reference over the whole batch (Proof/RefValue.lean); the flattening and last scaling are
  the same host operations in both, so they are named once (`tail`) and never opened.

  The three frames are the generated ones (the reference's is its generated run with the result dropped); no ideal
  rewrite was applied to the kernel, so `preserves` has nothing to state.
-/
import proofs.«172084_j21844203668356_1_alg».proof.Defs
import proofs.«172084_j21844203668356_1_alg».proof.Proof.Gen.Kernel
import proofs.«172084_j21844203668356_1_alg».proof.Proof.Gen.Kernel.Skeleton
import proofs.«172084_j21844203668356_1_alg».proof.Proof.Gen.Kernel.Launch
import proofs.«172084_j21844203668356_1_alg».proof.Proof.Gen.Kernel.Points
import proofs.«172084_j21844203668356_1_alg».proof.Proof.Gen.Kernel.Frame
import proofs.«172084_j21844203668356_1_alg».proof.Proof.Gen.KernelIdeal
import proofs.«172084_j21844203668356_1_alg».proof.Proof.Gen.KernelIdeal.Skeleton
import proofs.«172084_j21844203668356_1_alg».proof.Proof.Gen.KernelIdeal.Launch
import proofs.«172084_j21844203668356_1_alg».proof.Proof.Gen.KernelIdeal.Points
import proofs.«172084_j21844203668356_1_alg».proof.Proof.Gen.KernelIdeal.Frame
import proofs.«172084_j21844203668356_1_alg».proof.Proof.Gen.ReferenceIdeal
import proofs.«172084_j21844203668356_1_alg».proof.Proof.Gen.ReferenceIdeal.Run
import proofs.«172084_j21844203668356_1_alg».proof.Proof.Gen.ReferenceIdeal.Read
import proofs.«172084_j21844203668356_1_alg».proof.Proof.Gen.Pre_finite_inputs
import proofs.«172084_j21844203668356_1_alg».proof.Proof.KernelArray
import proofs.«172084_j21844203668356_1_alg».proof.Proof.RefValue
import Idealize.ShloMosaic.Adequacy
import Idealize.ShloMosaic.Init
import Idealize.ShloMosaic.Lib.StableHlo.Run
import Idealize.ShloMosaic.Lib.Pipeline.FrameSuffix

set_option maxRecDepth 16384

noncomputable section

/-! ## The shared tail: flatten each batch element's residuals and scale the vector to unit length -/

namespace Cert.ReferenceIdeal.RefValue

open Cert.ReferenceIdeal Cert.ReferenceIdeal.Gen Cert.ReferenceIdeal.Read Idealize.ShloMosaic Idealize.ShloMosaic.ValueIdx

/-- The host operations both programs end with, of the `64 × 64 × 256` array of scaled residuals: flatten to
    `64 × 16384`, divide each row by the guarded square root of its sum of squares. -/
def tail (Y : (⟨S64x64x256, .f32⟩ : BufTy).Contents (Elt Ideal)) : (⟨S64x16384, .f32⟩ : BufTy).Contents (Elt Ideal) :=
  Host.divf (F := Ideal) (shapeCast S64x16384 Y shapeCasts_S64x64x256_S64x16384)
    (broadcastInDim S64x16384 ![0, 1] bcast_S64x1_S64x16384_0_1
      (maximumf (F := Ideal)
        (Host.sqrt (F := Ideal)
          (broadcastInDim S64x1 ![0] bcast_S64_S64x1_0
            (Host.reduceAdd (F := Ideal)
              (mulf (F := Ideal) (shapeCast S64x16384 Y shapeCasts_S64x64x256_S64x16384) (shapeCast S64x16384 Y shapeCasts_S64x64x256_S64x16384))
              (constant (F := Ideal) S_ .f32 0x00000000#32) reducesTo_S64x16384_S64_d1 h_S_)))
        (broadcastInDim S64x1 ![] bcast_S_S64x1 (constant (F := Ideal) S_ .f32 0x2B8CBCCC#32))))

/-- The reference's result is the tail of its array of scaled residuals. -/
theorem v38_eq_tail (x : (⟨S64x2048x256, .f32⟩ : BufTy).Contents (Elt Ideal)) (W : (⟨S64x256, .f32⟩ : BufTy).Contents (Elt Ideal))
    (b : (⟨S64, .f32⟩ : BufTy).Contents (Elt Ideal)) (cen : (⟨S64x256, .f32⟩ : BufTy).Contents (Elt Ideal)) :
    val_main_v38 (F := Ideal) x W b cen = tail (val_main_v32 (F := Ideal) x W b cen) := rfl

end Cert.ReferenceIdeal.RefValue

/-! ## The kernel's run, its result named -/

namespace Cert.KernelIdeal.ArrValue

open Cert.KernelIdeal Cert.KernelIdeal.Gen Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- After the region the output array holds `arrOut`, and the host lines after it are the tail of that. -/
theorem tail_eq (c : Dev nD) :
    Pipeline.afterTail₀ cfgs (dats m) 0 (V0 m) [hostOps1] c main_v11 = Cert.ReferenceIdeal.RefValue.tail (arrOut m c) := by
  have hw : Pipeline.withArrays (cfgs 0).spec c (V0 m c) (fun w => (dats m 0 c).arrAt w (cfgs 0).N) (Proc.devRef .tc main_v2) = arrOut m c :=
    (Pipeline.withArrays_arr spec0 launch0.win.arr_inj c _ _ 4).trans (final m c)
  unfold Pipeline.afterTail₀
  show StableHlo.after hostOps1 _ (Proc.devRef .tc main_v11) = _
  after_results
  rw [hw]
  rfl

/-- Every weakly fair execution of the idealized kernel terminates with its result at the tail of `arrOut` and its
    arguments unchanged. -/
theorem run : θ_run defs (onTc (τ := τ) (main (F := Ideal))) ⟨m, fun _ => 0, ρ⟩ (fun r => ∀ c : Dev nD,
      r.2.mem ((c.tc : Thread nD τ).loc main_v11) = Cert.ReferenceIdeal.RefValue.tail (arrOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.ArrValue

/-! ## The claims -/

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's array of scaled residuals, on arguments that agree with the kernel's, is the kernel's output
    array: at every `(n, k, c)` both are the per-sample function of batch element `n`. -/
theorem ref_arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Read.val_main_v32 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
      = Cert.KernelIdeal.ArrValue.arrOut m c := by
  rw [h0, h1, h2, h3]
  funext i
  rw [eq_ix3 i]
  exact Cert.ReferenceIdeal.RefValue.ref_out _ _ _ _ (i 0) (i 1) (i 2)

/-- From memories agreeing on the arguments both idealized programs run, and end with equal results: the shared tail
    of one array of scaled residuals. -/
theorem algebraic : Cert.algebraic_KernelIdeal_ReferenceIdeal := by
  intro m ρ m' ρ' _ hagree
  refine ⟨fun c => Cert.ReferenceIdeal.RefValue.tail (Cert.KernelIdeal.ArrValue.arrOut m c), Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.v38_eq_tail]
  exact congrArg Cert.ReferenceIdeal.RefValue.tail
    (ref_arr_eq m m' c (hagree c).1 (hagree c).2.1 (hagree c).2.2.1 (hagree c).2.2.2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
